-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x56x56 : Shape := ⟨4, ![8, 64, 56, 56]⟩
abbrev S64x1x1x32 : Shape := ⟨4, ![64, 1, 1, 32]⟩
abbrev S_ : Shape := ⟨0, ![]⟩

class Facts : Prop where
  bcast_S_S8x64x56x56 : S_.BroadcastsInDim S8x64x56x56 (![] : Fin 0 → Fin S8x64x56x56.rank)
  reducesTo_S8x64x56x56_S_d0_1_2_3 : S8x64x56x56.ReducesTo [0, 1, 2, 3] S_
  h_S_ : 0 < S_.numel
  bcast_S_S64x1x1x32 : S_.BroadcastsInDim S64x1x1x32 (![] : Fin 0 → Fin S64x1x1x32.rank)
  reducesTo_S64x1x1x32_S_d0_1_2_3 : S64x1x1x32.ReducesTo [0, 1, 2, 3] S_

variable [Facts]

def fn {F : FTy → Type} [FloatOps F] (main_arg0 : FVec F S8x64x56x56 .f32) (main_arg1 : FVec F S64x1x1x32 .f32) (main_arg2 : FVec F S64x1x1x32 .f32) : IVec S_ 1 :=
  let main_v0 : FVec F S8x64x56x56 .f32 := Host.absf main_arg0
  let main_cst : FVec F S_ .f32 := constant S_ .f32 0x7F800000#32
  let main_v1 : FVec F S8x64x56x56 .f32 := broadcastInDim S8x64x56x56 ![] bcast_S_S8x64x56x56 main_cst
  let main_v2 : IVec S8x64x56x56 1 := cmpf .olt main_v0 main_v1
  let main_c : IVec S_ 1 := constantI S_ 1 1#1
  let main_v3 : IVec S_ 1 := (fun x v => Host.reduce IntOp.andi x v reducesTo_S8x64x56x56_S_d0_1_2_3 h_S_) main_v2 main_c
  let main_v4 : FVec F S64x1x1x32 .f32 := Host.absf main_arg1
  let main_cst_0 : FVec F S_ .f32 := constant S_ .f32 0x7F800000#32
  let main_v5 : FVec F S64x1x1x32 .f32 := broadcastInDim S64x1x1x32 ![] bcast_S_S64x1x1x32 main_cst_0
  let main_v6 : IVec S64x1x1x32 1 := cmpf .olt main_v4 main_v5
  let main_c_1 : IVec S_ 1 := constantI S_ 1 1#1
  let main_v7 : IVec S_ 1 := (fun x v => Host.reduce IntOp.andi x v reducesTo_S64x1x1x32_S_d0_1_2_3 h_S_) main_v6 main_c_1
  let main_v8 : IVec S_ 1 := andi main_v3 main_v7
  let main_v9 : FVec F S64x1x1x32 .f32 := Host.absf main_arg2
  let main_cst_2 : FVec F S_ .f32 := constant S_ .f32 0x7F800000#32
  let main_v10 : FVec F S64x1x1x32 .f32 := broadcastInDim S64x1x1x32 ![] bcast_S_S64x1x1x32 main_cst_2
  let main_v11 : IVec S64x1x1x32 1 := cmpf .olt main_v9 main_v10
  let main_c_3 : IVec S_ 1 := constantI S_ 1 1#1
  let main_v12 : IVec S_ 1 := (fun x v => Host.reduce IntOp.andi x v reducesTo_S64x1x1x32_S_d0_1_2_3 h_S_) main_v11 main_c_3
  let main_v13 : IVec S_ 1 := andi main_v8 main_v12
  main_v13
-- ==== Kernel.lean ====
abbrev S8x64x56x56 : Shape := ⟨4, ![8, 64, 56, 56]⟩
abbrev S64x1x1x32 : Shape := ⟨4, ![64, 1, 1, 32]⟩
abbrev S64x32 : Shape := ⟨2, ![64, 32]⟩
abbrev S8x32x56x56 : Shape := ⟨4, ![8, 32, 56, 56]⟩
abbrev S1x64x56x56 : Shape := ⟨4, ![1, 64, 56, 56]⟩
abbrev S1x32x56x56 : Shape := ⟨4, ![1, 32, 56, 56]⟩
abbrev S32x56x56 : Shape := ⟨3, ![32, 56, 56]⟩
abbrev S1x1x56x56 : Shape := ⟨4, ![1, 1, 56, 56]⟩
abbrev S56x56 : Shape := ⟨2, ![56, 56]⟩
abbrev S1x32 : Shape := ⟨2, ![1, 32]⟩
abbrev S32 : Shape := ⟨1, ![32]⟩
abbrev S1x56x56 : Shape := ⟨3, ![1, 56, 56]⟩
abbrev S32x1x1 : Shape := ⟨3, ![32, 1, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x64x56x56, .f32⟩
  | .hbm, ⟨1, _⟩ => ⟨S64x1x1x32, .f32⟩
  | .hbm, ⟨2, _⟩ => ⟨S64x1x1x32, .f32⟩
  | .hbm, ⟨3, _⟩ => ⟨S64x32, .f32⟩
  | .hbm, ⟨4, _⟩ => ⟨S64x32, .f32⟩
  | .hbm, ⟨5, _⟩ => ⟨S8x32x56x56, .f32⟩
  | .local _ .vmem, ⟨0, _⟩ => ⟨S1x64x56x56, .f32⟩
  | .local _ .vmem, ⟨1, _⟩ => ⟨S1x64x56x56, .f32⟩
  | .local _ .vmem, ⟨2, _⟩ => ⟨S64x32, .f32⟩
  | .local _ .vmem, ⟨3, _⟩ => ⟨S64x32, .f32⟩
  | .local _ .vmem, ⟨4, _⟩ => ⟨S1x32x56x56, .f32⟩
  | .local _ .vmem, ⟨5, _⟩ => ⟨S1x32x56x56, .f32⟩
  | _, _ => ⟨S8x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x1x1x32_S64x32 : S64x1x1x32.ShapeCasts S64x32
  inb_S1x64x56x56_S1x1x56x56_0_0_0_0 : ∀ a, (![0, 0, 0, 0] : Fin 4 → Nat) a + S1x1x56x56.size a ≤ S1x64x56x56.size a
  h_S1x1x56x56 : 0 < S1x1x56x56.numel
  shapeCasts_S1x1x56x56_S56x56 : S1x1x56x56.ShapeCasts S56x56
  inb_S64x32_S1x32_0_0 : ∀ a, (![0, 0] : Fin 2 → Nat) a + S1x32.size a ≤ S64x32.size a
  h_S1x32 : 0 < S1x32.numel
  shapeCasts_S1x32_S32 : S1x32.ShapeCasts S32
  shapeCasts_S56x56_S1x56x56 : S56x56.ShapeCasts S1x56x56
  shapeCasts_S32_S32x1x1 : S32.ShapeCasts S32x1x1
  broadcasts_S1x56x56_S32x56x56 : S1x56x56.Broadcasts S32x56x56
  broadcasts_S32x1x1_S32x56x56 : S32x1x1.Broadcasts S32x56x56
  inb_S1x64x56x56_S1x1x56x56_0_1_0_0 : ∀ a, (![0, 1, 0, 0] : Fin 4 → Nat) a + S1x1x56x56.size a ≤ S1x64x56x56.size a
  inb_S64x32_S1x32_1_0 : ∀ a, (![1, 0] : Fin 2 → Nat) a + S1x32.size a ≤ S64x32.size a
  inb_S1x64x56x56_S1x1x56x56_0_2_0_0 : ∀ a, (![0, 2, 0, 0] : Fin 4 → Nat) a + S1x1x56x56.size a ≤ S1x64x56x56.size a
  inb_S64x32_S1x32_2_0 : ∀ a, (![2, 0] : Fin 2 → Nat) a + S1x32.size a ≤ S64x32.size a
  inb_S1x64x56x56_S1x1x56x56_0_3_0_0 : ∀ a, (![0, 3, 0, 0] : Fin 4 → Nat) a + S1x1x56x56.size a ≤ S1x64x56x56.size a
  inb_S64x32_S1x32_3_0 : ∀ a, (![3, 0] : Fin 2 → Nat) a + S1x32.size a ≤ S64x32.size a
  inb_S1x64x56x56_S1x1x56x56_0_4_0_0 : ∀ a, (![0, 4, 0, 0] : Fin 4 → Nat) a + S1x1x56x56.size a ≤ S1x64x56x56.size a
  inb_S64x32_S1x32_4_0 : ∀ a, (![4, 0] : Fin 2 → Nat) a + S1x32.size a ≤ S64x32.size a
  inb_S1x64x56x56_S1x1x56x56_0_5_0_0 : ∀ a, (![0, 5, 0, 0] : Fin 4 → Nat) a + S1x1x56x56.size a ≤ S1x64x56x56.size a
  inb_S64x32_S1x32_5_0 : ∀ a, (![5, 0] : Fin 2 → Nat) a + S1x32.size a ≤ S64x32.size a
  inb_S1x64x56x56_S1x1x56x56_0_6_0_0 : ∀ a, (![0, 6, 0, 0] : Fin 4 → Nat) a + S1x1x56x56.size a ≤ S1x64x56x56.size a
  inb_S64x32_S1x32_6_0 : ∀ a, (![6, 0] : Fin 2 → Nat) a + S1x32.size a ≤ S64x32.size a
  inb_S1x64x56x56_S1x1x56x56_0_7_0_0 : ∀ a, (![0, 7, 0, 0] : Fin 4 → Nat) a + S1x1x56x56.size a ≤ S1x64x56x56.size a
  inb_S64x32_S1x32_7_0 : ∀ a, (![7, 0] : Fin 2 → Nat) a + S1x32.size a ≤ S64x32.size a
  inb_S1x64x56x56_S1x1x56x56_0_8_0_0 : ∀ a, (![0, 8, 0, 0] : Fin 4 → Nat) a + S1x1x56x56.size a ≤ S1x64x56x56.size a
  inb_S64x32_S1x32_8_0 : ∀ a, (![8, 0] : Fin 2 → Nat) a + S1x32.size a ≤ S64x32.size a
  inb_S1x64x56x56_S1x1x56x56_0_9_0_0 : ∀ a, (![0, 9, 0, 0] : Fin 4 → Nat) a + S1x1x56x56.size a ≤ S1x64x56x56.size a
  inb_S64x32_S1x32_9_0 : ∀ a, (![9, 0] : Fin 2 → Nat) a + S1x32.size a ≤ S64x32.size a
  inb_S1x64x56x56_S1x1x56x56_0_10_0_0 : ∀ a, (![0, 10, 0, 0] : Fin 4 → Nat) a + S1x1x56x56.size a ≤ S1x64x56x56.size a
  inb_S64x32_S1x32_10_0 : ∀ a, (![10, 0] : Fin 2 → Nat) a + S1x32.size a ≤ S64x32.size a
  inb_S1x64x56x56_S1x1x56x56_0_11_0_0 : ∀ a, (![0, 11, 0, 0] : Fin 4 → Nat) a + S1x1x56x56.size a ≤ S1x64x56x56.size a
  inb_S64x32_S1x32_11_0 : ∀ a, (![11, 0] : Fin 2 → Nat) a + S1x32.size a ≤ S64x32.size a
  inb_S1x64x56x56_S1x1x56x56_0_12_0_0 : ∀ a, (![0, 12, 0, 0] : Fin 4 → Nat) a + S1x1x56x56.size a ≤ S1x64x56x56.size a
  inb_S64x32_S1x32_12_0 : ∀ a, (![12, 0] : Fin 2 → Nat) a + S1x32.size a ≤ S64x32.size a
  inb_S1x64x56x56_S1x1x56x56_0_13_0_0 : ∀ a, (![0, 13, 0, 0] : Fin 4 → Nat) a + S1x1x56x56.size a ≤ S1x64x56x56.size a
  inb_S64x32_S1x32_13_0 : ∀ a, (![13, 0] : Fin 2 → Nat) a + S1x32.size a ≤ S64x32.size a
  inb_S1x64x56x56_S1x1x56x56_0_14_0_0 : ∀ a, (![0, 14, 0, 0] : Fin 4 → Nat) a + S1x1x56x56.size a ≤ S1x64x56x56.size a
  inb_S64x32_S1x32_14_0 : ∀ a, (![14, 0] : Fin 2 → Nat) a + S1x32.size a ≤ S64x32.size a
  inb_S1x64x56x56_S1x1x56x56_0_15_0_0 : ∀ a, (![0, 15, 0, 0] : Fin 4 → Nat) a + S1x1x56x56.size a ≤ S1x64x56x56.size a
  inb_S64x32_S1x32_15_0 : ∀ a, (![15, 0] : Fin 2 → Nat) a + S1x32.size a ≤ S64x32.size a
  inb_S1x64x56x56_S1x1x56x56_0_16_0_0 : ∀ a, (![0, 16, 0, 0] : Fin 4 → Nat) a + S1x1x56x56.size a ≤ S1x64x56x56.size a
  inb_S64x32_S1x32_16_0 : ∀ a, (![16, 0] : Fin 2 → Nat) a + S1x32.size a ≤ S64x32.size a
  inb_S1x64x56x56_S1x1x56x56_0_17_0_0 : ∀ a, (![0, 17, 0, 0] : Fin 4 → Nat) a + S1x1x56x56.size a ≤ S1x64x56x56.size a
  inb_S64x32_S1x32_17_0 : ∀ a, (![17, 0] : Fin 2 → Nat) a + S1x32.size a ≤ S64x32.size a
  inb_S1x64x56x56_S1x1x56x56_0_18_0_0 : ∀ a, (![0, 18, 0, 0] : Fin 4 → Nat) a + S1x1x56x56.size a ≤ S1x64x56x56.size a
  inb_S64x32_S1x32_18_0 : ∀ a, (![18, 0] : Fin 2 → Nat) a + S1x32.size a ≤ S64x32.size a
  inb_S1x64x56x56_S1x1x56x56_0_19_0_0 : ∀ a, (![0, 19, 0, 0] : Fin 4 → Nat) a + S1x1x56x56.size a ≤ S1x64x56x56.size a
  inb_S64x32_S1x32_19_0 : ∀ a, (![19, 0] : Fin 2 → Nat) a + S1x32.size a ≤ S64x32.size a
  inb_S1x64x56x56_S1x1x56x56_0_20_0_0 : ∀ a, (![0, 20, 0, 0] : Fin 4 → Nat) a + S1x1x56x56.size a ≤ S1x64x56x56.size a
  inb_S64x32_S1x32_20_0 : ∀ a, (![20, 0] : Fin 2 → Nat) a + S1x32.size a ≤ S64x32.size a
  inb_S1x64x56x56_S1x1x56x56_0_21_0_0 : ∀ a, (![0, 21, 0, 0] : Fin 4 → Nat) a + S1x1x56x56.size a ≤ S1x64x56x56.size a
  inb_S64x32_S1x32_21_0 : ∀ a, (![21, 0] : Fin 2 → Nat) a + S1x32.size a ≤ S64x32.size a
  inb_S1x64x56x56_S1x1x56x56_0_22_0_0 : ∀ a, (![0, 22, 0, 0] : Fin 4 → Nat) a + S1x1x56x56.size a ≤ S1x64x56x56.size a
  inb_S64x32_S1x32_22_0 : ∀ a, (![22, 0] : Fin 2 → Nat) a + S1x32.size a ≤ S64x32.size a
  inb_S1x64x56x56_S1x1x56x56_0_23_0_0 : ∀ a, (![0, 23, 0, 0] : Fin 4 → Nat) a + S1x1x56x56.size a ≤ S1x64x56x56.size a
  inb_S64x32_S1x32_23_0 : ∀ a, (![23, 0] : Fin 2 → Nat) a + S1x32.size a ≤ S64x32.size a
  inb_S1x64x56x56_S1x1x56x56_0_24_0_0 : ∀ a, (![0, 24, 0, 0] : Fin 4 → Nat) a + S1x1x56x56.size a ≤ S1x64x56x56.size a
  inb_S64x32_S1x32_24_0 : ∀ a, (![24, 0] : Fin 2 → Nat) a + S1x32.size a ≤ S64x32.size a
  inb_S1x64x56x56_S1x1x56x56_0_25_0_0 : ∀ a, (![0, 25, 0, 0] : Fin 4 → Nat) a + S1x1x56x56.size a ≤ S1x64x56x56.size a
  inb_S64x32_S1x32_25_0 : ∀ a, (![25, 0] : Fin 2 → Nat) a + S1x32.size a ≤ S64x32.size a
  inb_S1x64x56x56_S1x1x56x56_0_26_0_0 : ∀ a, (![0, 26, 0, 0] : Fin 4 → Nat) a + S1x1x56x56.size a ≤ S1x64x56x56.size a
  inb_S64x32_S1x32_26_0 : ∀ a, (![26, 0] : Fin 2 → Nat) a + S1x32.size a ≤ S64x32.size a
  inb_S1x64x56x56_S1x1x56x56_0_27_0_0 : ∀ a, (![0, 27, 0, 0] : Fin 4 → Nat) a + S1x1x56x56.size a ≤ S1x64x56x56.size a
  inb_S64x32_S1x32_27_0 : ∀ a, (![27, 0] : Fin 2 → Nat) a + S1x32.size a ≤ S64x32.size a
  inb_S1x64x56x56_S1x1x56x56_0_28_0_0 : ∀ a, (![0, 28, 0, 0] : Fin 4 → Nat) a + S1x1x56x56.size a ≤ S1x64x56x56.size a
  inb_S64x32_S1x32_28_0 : ∀ a, (![28, 0] : Fin 2 → Nat) a + S1x32.size a ≤ S64x32.size a
  inb_S1x64x56x56_S1x1x56x56_0_29_0_0 : ∀ a, (![0, 29, 0, 0] : Fin 4 → Nat) a + S1x1x56x56.size a ≤ S1x64x56x56.size a
  inb_S64x32_S1x32_29_0 : ∀ a, (![29, 0] : Fin 2 → Nat) a + S1x32.size a ≤ S64x32.size a
  inb_S1x64x56x56_S1x1x56x56_0_30_0_0 : ∀ a, (![0, 30, 0, 0] : Fin 4 → Nat) a + S1x1x56x56.size a ≤ S1x64x56x56.size a
  inb_S64x32_S1x32_30_0 : ∀ a, (![30, 0] : Fin 2 → Nat) a + S1x32.size a ≤ S64x32.size a
  inb_S1x64x56x56_S1x1x56x56_0_31_0_0 : ∀ a, (![0, 31, 0, 0] : Fin 4 → Nat) a + S1x1x56x56.size a ≤ S1x64x56x56.size a
  inb_S64x32_S1x32_31_0 : ∀ a, (![31, 0] : Fin 2 → Nat) a + S1x32.size a ≤ S64x32.size a
  inb_S1x64x56x56_S1x1x56x56_0_32_0_0 : ∀ a, (![0, 32, 0, 0] : Fin 4 → Nat) a + S1x1x56x56.size a ≤ S1x64x56x56.size a
  inb_S64x32_S1x32_32_0 : ∀ a, (![32, 0] : Fin 2 → Nat) a + S1x32.size a ≤ S64x32.size a
  inb_S1x64x56x56_S1x1x56x56_0_33_0_0 : ∀ a, (![0, 33, 0, 0] : Fin 4 → Nat) a + S1x1x56x56.size a ≤ S1x64x56x56.size a
  inb_S64x32_S1x32_33_0 : ∀ a, (![33, 0] : Fin 2 → Nat) a + S1x32.size a ≤ S64x32.size a
  inb_S1x64x56x56_S1x1x56x56_0_34_0_0 : ∀ a, (![0, 34, 0, 0] : Fin 4 → Nat) a + S1x1x56x56.size a ≤ S1x64x56x56.size a
  inb_S64x32_S1x32_34_0 : ∀ a, (![34, 0] : Fin 2 → Nat) a + S1x32.size a ≤ S64x32.size a
  inb_S1x64x56x56_S1x1x56x56_0_35_0_0 : ∀ a, (![0, 35, 0, 0] : Fin 4 → Nat) a + S1x1x56x56.size a ≤ S1x64x56x56.size a
  inb_S64x32_S1x32_35_0 : ∀ a, (![35, 0] : Fin 2 → Nat) a + S1x32.size a ≤ S64x32.size a
  inb_S1x64x56x56_S1x1x56x56_0_36_0_0 : ∀ a, (![0, 36, 0, 0] : Fin 4 → Nat) a + S1x1x56x56.size a ≤ S1x64x56x56.size a
  inb_S64x32_S1x32_36_0 : ∀ a, (![36, 0] : Fin 2 → Nat) a + S1x32.size a ≤ S64x32.size a
  inb_S1x64x56x56_S1x1x56x56_0_37_0_0 : ∀ a, (![0, 37, 0, 0] : Fin 4 → Nat) a + S1x1x56x56.size a ≤ S1x64x56x56.size a
  inb_S64x32_S1x32_37_0 : ∀ a, (![37, 0] : Fin 2 → Nat) a + S1x32.size a ≤ S64x32.size a
  inb_S1x64x56x56_S1x1x56x56_0_38_0_0 : ∀ a, (![0, 38, 0, 0] : Fin 4 → Nat) a + S1x1x56x56.size a ≤ S1x64x56x56.size a
  inb_S64x32_S1x32_38_0 : ∀ a, (![38, 0] : Fin 2 → Nat) a + S1x32.size a ≤ S64x32.size a
  inb_S1x64x56x56_S1x1x56x56_0_39_0_0 : ∀ a, (![0, 39, 0, 0] : Fin 4 → Nat) a + S1x1x56x56.size a ≤ S1x64x56x56.size a
  inb_S64x32_S1x32_39_0 : ∀ a, (![39, 0] : Fin 2 → Nat) a + S1x32.size a ≤ S64x32.size a
  inb_S1x64x56x56_S1x1x56x56_0_40_0_0 : ∀ a, (![0, 40, 0, 0] : Fin 4 → Nat) a + S1x1x56x56.size a ≤ S1x64x56x56.size a
  inb_S64x32_S1x32_40_0 : ∀ a, (![40, 0] : Fin 2 → Nat) a + S1x32.size a ≤ S64x32.size a
  inb_S1x64x56x56_S1x1x56x56_0_41_0_0 : ∀ a, (![0, 41, 0, 0] : Fin 4 → Nat) a + S1x1x56x56.size a ≤ S1x64x56x56.size a
  inb_S64x32_S1x32_41_0 : ∀ a, (![41, 0] : Fin 2 → Nat) a + S1x32.size a ≤ S64x32.size a
  inb_S1x64x56x56_S1x1x56x56_0_42_0_0 : ∀ a, (![0, 42, 0, 0] : Fin 4 → Nat) a + S1x1x56x56.size a ≤ S1x64x56x56.size a
  inb_S64x32_S1x32_42_0 : ∀ a, (![42, 0] : Fin 2 → Nat) a + S1x32.size a ≤ S64x32.size a
  inb_S1x64x56x56_S1x1x56x56_0_43_0_0 : ∀ a, (![0, 43, 0, 0] : Fin 4 → Nat) a + S1x1x56x56.size a ≤ S1x64x56x56.size a
  inb_S64x32_S1x32_43_0 : ∀ a, (![43, 0] : Fin 2 → Nat) a + S1x32.size a ≤ S64x32.size a
  inb_S1x64x56x56_S1x1x56x56_0_44_0_0 : ∀ a, (![0, 44, 0, 0] : Fin 4 → Nat) a + S1x1x56x56.size a ≤ S1x64x56x56.size a
  inb_S64x32_S1x32_44_0 : ∀ a, (![44, 0] : Fin 2 → Nat) a + S1x32.size a ≤ S64x32.size a
  inb_S1x64x56x56_S1x1x56x56_0_45_0_0 : ∀ a, (![0, 45, 0, 0] : Fin 4 → Nat) a + S1x1x56x56.size a ≤ S1x64x56x56.size a
  inb_S64x32_S1x32_45_0 : ∀ a, (![45, 0] : Fin 2 → Nat) a + S1x32.size a ≤ S64x32.size a
  inb_S1x64x56x56_S1x1x56x56_0_46_0_0 : ∀ a, (![0, 46, 0, 0] : Fin 4 → Nat) a + S1x1x56x56.size a ≤ S1x64x56x56.size a
  inb_S64x32_S1x32_46_0 : ∀ a, (![46, 0] : Fin 2 → Nat) a + S1x32.size a ≤ S64x32.size a
  inb_S1x64x56x56_S1x1x56x56_0_47_0_0 : ∀ a, (![0, 47, 0, 0] : Fin 4 → Nat) a + S1x1x56x56.size a ≤ S1x64x56x56.size a
  inb_S64x32_S1x32_47_0 : ∀ a, (![47, 0] : Fin 2 → Nat) a + S1x32.size a ≤ S64x32.size a
  inb_S1x64x56x56_S1x1x56x56_0_48_0_0 : ∀ a, (![0, 48, 0, 0] : Fin 4 → Nat) a + S1x1x56x56.size a ≤ S1x64x56x56.size a
  inb_S64x32_S1x32_48_0 : ∀ a, (![48, 0] : Fin 2 → Nat) a + S1x32.size a ≤ S64x32.size a
  inb_S1x64x56x56_S1x1x56x56_0_49_0_0 : ∀ a, (![0, 49, 0, 0] : Fin 4 → Nat) a + S1x1x56x56.size a ≤ S1x64x56x56.size a
  inb_S64x32_S1x32_49_0 : ∀ a, (![49, 0] : Fin 2 → Nat) a + S1x32.size a ≤ S64x32.size a
  inb_S1x64x56x56_S1x1x56x56_0_50_0_0 : ∀ a, (![0, 50, 0, 0] : Fin 4 → Nat) a + S1x1x56x56.size a ≤ S1x64x56x56.size a
  inb_S64x32_S1x32_50_0 : ∀ a, (![50, 0] : Fin 2 → Nat) a + S1x32.size a ≤ S64x32.size a
  inb_S1x64x56x56_S1x1x56x56_0_51_0_0 : ∀ a, (![0, 51, 0, 0] : Fin 4 → Nat) a + S1x1x56x56.size a ≤ S1x64x56x56.size a
  inb_S64x32_S1x32_51_0 : ∀ a, (![51, 0] : Fin 2 → Nat) a + S1x32.size a ≤ S64x32.size a
  inb_S1x64x56x56_S1x1x56x56_0_52_0_0 : ∀ a, (![0, 52, 0, 0] : Fin 4 → Nat) a + S1x1x56x56.size a ≤ S1x64x56x56.size a
  inb_S64x32_S1x32_52_0 : ∀ a, (![52, 0] : Fin 2 → Nat) a + S1x32.size a ≤ S64x32.size a
  inb_S1x64x56x56_S1x1x56x56_0_53_0_0 : ∀ a, (![0, 53, 0, 0] : Fin 4 → Nat) a + S1x1x56x56.size a ≤ S1x64x56x56.size a
  inb_S64x32_S1x32_53_0 : ∀ a, (![53, 0] : Fin 2 → Nat) a + S1x32.size a ≤ S64x32.size a
  inb_S1x64x56x56_S1x1x56x56_0_54_0_0 : ∀ a, (![0, 54, 0, 0] : Fin 4 → Nat) a + S1x1x56x56.size a ≤ S1x64x56x56.size a
  inb_S64x32_S1x32_54_0 : ∀ a, (![54, 0] : Fin 2 → Nat) a + S1x32.size a ≤ S64x32.size a
  inb_S1x64x56x56_S1x1x56x56_0_55_0_0 : ∀ a, (![0, 55, 0, 0] : Fin 4 → Nat) a + S1x1x56x56.size a ≤ S1x64x56x56.size a
  inb_S64x32_S1x32_55_0 : ∀ a, (![55, 0] : Fin 2 → Nat) a + S1x32.size a ≤ S64x32.size a
  inb_S1x64x56x56_S1x1x56x56_0_56_0_0 : ∀ a, (![0, 56, 0, 0] : Fin 4 → Nat) a + S1x1x56x56.size a ≤ S1x64x56x56.size a
  inb_S64x32_S1x32_56_0 : ∀ a, (![56, 0] : Fin 2 → Nat) a + S1x32.size a ≤ S64x32.size a
  inb_S1x64x56x56_S1x1x56x56_0_57_0_0 : ∀ a, (![0, 57, 0, 0] : Fin 4 → Nat) a + S1x1x56x56.size a ≤ S1x64x56x56.size a
  inb_S64x32_S1x32_57_0 : ∀ a, (![57, 0] : Fin 2 → Nat) a + S1x32.size a ≤ S64x32.size a
  inb_S1x64x56x56_S1x1x56x56_0_58_0_0 : ∀ a, (![0, 58, 0, 0] : Fin 4 → Nat) a + S1x1x56x56.size a ≤ S1x64x56x56.size a
  inb_S64x32_S1x32_58_0 : ∀ a, (![58, 0] : Fin 2 → Nat) a + S1x32.size a ≤ S64x32.size a
  inb_S1x64x56x56_S1x1x56x56_0_59_0_0 : ∀ a, (![0, 59, 0, 0] : Fin 4 → Nat) a + S1x1x56x56.size a ≤ S1x64x56x56.size a
  inb_S64x32_S1x32_59_0 : ∀ a, (![59, 0] : Fin 2 → Nat) a + S1x32.size a ≤ S64x32.size a
  inb_S1x64x56x56_S1x1x56x56_0_60_0_0 : ∀ a, (![0, 60, 0, 0] : Fin 4 → Nat) a + S1x1x56x56.size a ≤ S1x64x56x56.size a
  inb_S64x32_S1x32_60_0 : ∀ a, (![60, 0] : Fin 2 → Nat) a + S1x32.size a ≤ S64x32.size a
  inb_S1x64x56x56_S1x1x56x56_0_61_0_0 : ∀ a, (![0, 61, 0, 0] : Fin 4 → Nat) a + S1x1x56x56.size a ≤ S1x64x56x56.size a
  inb_S64x32_S1x32_61_0 : ∀ a, (![61, 0] : Fin 2 → Nat) a + S1x32.size a ≤ S64x32.size a
  inb_S1x64x56x56_S1x1x56x56_0_62_0_0 : ∀ a, (![0, 62, 0, 0] : Fin 4 → Nat) a + S1x1x56x56.size a ≤ S1x64x56x56.size a
  inb_S64x32_S1x32_62_0 : ∀ a, (![62, 0] : Fin 2 → Nat) a + S1x32.size a ≤ S64x32.size a
  inb_S1x64x56x56_S1x1x56x56_0_63_0_0 : ∀ a, (![0, 63, 0, 0] : Fin 4 → Nat) a + S1x1x56x56.size a ≤ S1x64x56x56.size a
  inb_S64x32_S1x32_63_0 : ∀ a, (![63, 0] : Fin 2 → Nat) a + S1x32.size a ≤ S64x32.size a
  inb_S1x32x56x56_S1x32x56x56_0_0_0_0 : ∀ a, (![0, 0, 0, 0] : Fin 4 → Nat) a + S1x32x56x56.size a ≤ S1x32x56x56.size a
  h_S1x32x56x56 : 0 < S1x32x56x56.numel
  shapeCasts_S1x32x56x56_S32x56x56 : S1x32x56x56.ShapeCasts S32x56x56
  shapeCasts_S32x56x56_S1x32x56x56 : S32x56x56.ShapeCasts S1x32x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x56x56.size a ≤ S8x64x56x56.size a
  hwx0_0 : ∀ i : grid0.Coords, EltTy.bits .f32 = 32 ∨ (Rect.block (s := S8x64x56x56) S1x64x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x56x56.size a ≤ S8x32x56x56.size a
  hwx0_3 : ∀ i : grid0.Coords, EltTy.bits .f32 = 32 ∨ (Rect.block (s := S8x32x56x56) S1x32x56x56.size (cc0_transform_3 i) (hinb0_3 i)).WholeWords (EltTy.packing .f32)

variable [Facts₀]

abbrev win0_0 : Pipeline.Window sig grid0 :=
  Pipeline.Window.ofSpec (Memref.whole main_arg0) S1x64x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x32x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x56x56 : Shape := ⟨4, ![8, 64, 56, 56]⟩
abbrev S64x1x1x32 : Shape := ⟨4, ![64, 1, 1, 32]⟩
abbrev S8x64x56x56x1 : Shape := ⟨5, ![8, 64, 56, 56, 1]⟩
abbrev S1x64x1x1x32 : Shape := ⟨5, ![1, 64, 1, 1, 32]⟩
abbrev S_ : Shape := ⟨0, ![]⟩
abbrev S8x64x56x56x32 : Shape := ⟨5, ![8, 64, 56, 56, 32]⟩
abbrev S8x56x56x32 : Shape := ⟨4, ![8, 56, 56, 32]⟩
abbrev S8x32x56x56 : Shape := ⟨4, ![8, 32, 56, 56]⟩

abbrev nBuf : Space → Nat
  | .hbm => 46
  | .vmem => 0
  | .smem => 0
  | _ => 0

abbrev bufTy : (tb : Table) → Fin (tcTables nBuf tb) → BufTy
  | .hbm, ⟨0, _⟩ => ⟨S8x64x56x56, .f32⟩
  | .hbm, ⟨1, _⟩ => ⟨S64x1x1x32, .f32⟩
  | .hbm, ⟨2, _⟩ => ⟨S64x1x1x32, .f32⟩
  | .hbm, ⟨3, _⟩ => ⟨S8x64x56x56x1, .f32⟩
  | .hbm, ⟨4, _⟩ => ⟨S1x64x1x1x32, .f32⟩
  | .hbm, ⟨5, _⟩ => ⟨S1x64x1x1x32, .f32⟩
  | .hbm, ⟨6, _⟩ => ⟨S1x64x1x1x32, .f32⟩
  | .hbm, ⟨7, _⟩ => ⟨S1x64x1x1x32, .f32⟩
  | .hbm, ⟨8, _⟩ => ⟨S_, .f32⟩
  | .hbm, ⟨9, _⟩ => ⟨S1x64x1x1x32, .f32⟩
  | .hbm, ⟨10, _⟩ => ⟨S1x64x1x1x32, .f32⟩
  | .hbm, ⟨11, _⟩ => ⟨S8x64x56x56x32, .f32⟩
  | .hbm, ⟨12, _⟩ => ⟨S8x64x56x56x32, .f32⟩
  | .hbm, ⟨13, _⟩ => ⟨S8x64x56x56x32, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x64x56x56x32, .f32⟩
  | .hbm, ⟨18, _⟩ => ⟨S8x64x56x56x32, .f32⟩
  | .hbm, ⟨19, _⟩ => ⟨S_, .f32⟩
  | .hbm, ⟨20, _⟩ => ⟨S8x64x56x56x32, .f32⟩
  | .hbm, ⟨21, _⟩ => ⟨S8x64x56x56x32, .f32⟩
  | .hbm, ⟨22, _⟩ => ⟨S_, .f32⟩
  | .hbm, ⟨23, _⟩ => ⟨S8x64x56x56x32, .f32⟩
  | .hbm, ⟨24, _⟩ => ⟨S8x64x56x56x32, .f32⟩
  | .hbm, ⟨25, _⟩ => ⟨S8x64x56x56x32, .f32⟩
  | .hbm, ⟨26, _⟩ => ⟨S8x64x56x56x32, .f32⟩
  | .hbm, ⟨27, _⟩ => ⟨S8x64x56x56x32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x64x56x56x32, .f32⟩
  | .hbm, ⟨32, _⟩ => ⟨S8x64x56x56x32, .f32⟩
  | .hbm, ⟨33, _⟩ => ⟨S_, .f32⟩
  | .hbm, ⟨34, _⟩ => ⟨S8x64x56x56x32, .f32⟩
  | .hbm, ⟨35, _⟩ => ⟨S8x64x56x56x32, .f32⟩
  | .hbm, ⟨36, _⟩ => ⟨S_, .f32⟩
  | .hbm, ⟨37, _⟩ => ⟨S8x64x56x56x32, .f32⟩
  | .hbm, ⟨38, _⟩ => ⟨S8x64x56x56x32, .f32⟩
  | .hbm, ⟨39, _⟩ => ⟨S8x64x56x56x32, .f32⟩
  | .hbm, ⟨40, _⟩ => ⟨S8x64x56x56x32, .f32⟩
  | .hbm, ⟨41, _⟩ => ⟨S8x64x56x56x32, .f32⟩
  | .hbm, ⟨42, _⟩ => ⟨S8x64x56x56x32, .f32⟩
  | .hbm, ⟨43, _⟩ => ⟨S_, .f32⟩
  | .hbm, ⟨44, _⟩ => ⟨S8x56x56x32, .f32⟩
  | .hbm, ⟨45, _⟩ => ⟨S8x32x56x56, .f32⟩
  | _, _ => ⟨S8x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v15 : Ref sig .tc := ⟨.hbm, 35, rfl⟩
abbrev main_call3_cst : Ref sig .tc := ⟨.hbm, 36, rfl⟩
abbrev main_call3_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩

abbrev nD : Nat := 1
abbrev τ : Topo := Topo.v7x

variable {F : FTy → Type} [FloatOps F]

class Facts₀ : Prop where
  bcast_S8x64x56x56_S8x64x56x56x1_0_1_2_3 : S8x64x56x56.BroadcastsInDim S8x64x56x56x1 (![0, 1, 2, 3] : Fin 4 → Fin S8x64x56x56x1.rank)
  bcast_S64x1x1x32_S1x64x1x1x32_1_2_3_4 : S64x1x1x32.BroadcastsInDim S1x64x1x1x32 (![1, 2, 3, 4] : Fin 4 → Fin S1x64x1x1x32.rank)
  bcast_S_S1x64x1x1x32 : S_.BroadcastsInDim S1x64x1x1x32 (![] : Fin 0 → Fin S1x64x1x1x32.rank)
  bcast_S8x64x56x56x1_S8x64x56x56x32_0_1_2_3_4 : S8x64x56x56x1.BroadcastsInDim S8x64x56x56x32 (![0, 1, 2, 3, 4] : Fin 5 → Fin S8x64x56x56x32.rank)
  bcast_S1x64x1x1x32_S8x64x56x56x32_0_1_2_3_4 : S1x64x1x1x32.BroadcastsInDim S8x64x56x56x32 (![0, 1, 2, 3, 4] : Fin 5 → Fin S8x64x56x56x32.rank)
  bcast_S_S8x64x56x56x32 : S_.BroadcastsInDim S8x64x56x56x32 (![] : Fin 0 → Fin S8x64x56x56x32.rank)
  reducesTo_S8x64x56x56x32_S8x56x56x32_d1 : S8x64x56x56x32.ReducesTo [1] S8x56x56x32
  h_S_ : 0 < S_.numel
  transposes_S8x56x56x32_S8x32x56x56_0_3_1_2 : S8x56x56x32.Transposes [0, 3, 1, 2] S8x32x56x56

variable [Facts₀]

class Facts : Prop extends Facts₀ where

variable [Facts]
-- ==== Proof.Body.lean ====
/-
  The kernel body as sixty-four steps of one function.

  The body reads, for each input channel `c`, the channel's 56x56 plane of the x block and row `c` of the two knot
  tables; from them it forms `basis`: the plane broadcast over the 32 output channels, the two knot rows broadcast over the
  plane, the two clipped positive parts, their product scaled by `4 / ((r - l) * (r - l))` and squared. `step` adds that to
  the accumulator. `upTo n` is the accumulator after the first `n` channels, from a zero accumulator; the value the body
  stores is `upTo 64` with a leading unit axis added. The printed body is the same sequence of operations with the sixty-four
  steps written out, so the two agree by unfolding.
-/
import proofs.«153587_j58660663328909_1_alg».proof.Proof.Gen.KernelIdeal.Frame

noncomputable section

namespace Cert.KernelIdeal.Body

open Cert.KernelIdeal Cert.KernelIdeal.Gen Idealize.ShloMosaic

variable {F : FTy → Type} [FloatOps F]

/-- Channel `c`'s plane of the x block. -/
theorem xinb (c : Fin 64) : ∀ a, (![0, c.val, 0, 0] : Fin 4 → Nat) a + S1x1x56x56.size a ≤ S1x64x56x56.size a := by
  intro a
  match a with
  | ⟨0, _⟩ => exact Nat.le_refl _
  | ⟨1, _⟩ => show c.val + 1 ≤ 64; exact c.isLt
  | ⟨2, _⟩ => exact Nat.le_refl _
  | ⟨3, _⟩ => exact Nat.le_refl _

/-- Row `c` of a knot table. -/
theorem kinb (c : Fin 64) : ∀ a, (![c.val, 0] : Fin 2 → Nat) a + S1x32.size a ≤ S64x32.size a := by
  intro a
  match a with
  | ⟨0, _⟩ => show c.val + 1 ≤ 64; exact c.isLt
  | ⟨1, _⟩ => exact Nat.le_refl _

abbrev xrect (c : Fin 64) : Rect S1x64x56x56 := Rect.unit (s := S1x64x56x56) ![0, c.val, 0, 0] S1x1x56x56.size (xinb c)
abbrev krect (c : Fin 64) : Rect S64x32 := Rect.unit (s := S64x32) ![c.val, 0] S1x32.size (kinb c)

/-- One input channel's contribution to the whole 32x56x56 accumulator, from the channel's plane `xc` and its rows
    `lc`, `rc` of the left and right knots. -/
def basis (xc : Vec F S1x1x56x56 .f32) (lc rc : Vec F S1x32 .f32) : FVec F S32x56x56 .f32 :=
  have xe : FVec F S1x56x56 .f32 := shapeCast S1x56x56 (shapeCast S56x56 xc shapeCasts_S1x1x56x56_S56x56) shapeCasts_S56x56_S1x56x56
  have lb : FVec F S32x1x1 .f32 := shapeCast S32x1x1 (shapeCast S32 lc shapeCasts_S1x32_S32) shapeCasts_S32_S32x1x1
  have rb : FVec F S32x1x1 .f32 := shapeCast S32x1x1 (shapeCast S32 rc shapeCasts_S1x32_S32) shapeCasts_S32_S32x1x1
  have d : FVec F S32x1x1 .f32 := subf rb lb
  have nc : FVec F S32x1x1 .f32 := divf (broadcast S32x1x1 (Scalar.ofBits .f32 0x40800000#32)) (mulf d d)
  have left : FVec F S32x56x56 .f32 :=
    maximumf (minimumf (broadcast S32x56x56 (Scalar.ofBits .f32 0x3F800000#32))
      (maximumf (broadcast S32x56x56 (Scalar.ofBits .f32 0xBF800000#32))
        (subf (broadcastTo S32x56x56 xe broadcasts_S1x56x56_S32x56x56) (broadcastTo S32x56x56 lb broadcasts_S32x1x1_S32x56x56))))
      (broadcast S32x56x56 (Scalar.ofBits .f32 0x00000000#32))
  have right : FVec F S32x56x56 .f32 :=
    maximumf (minimumf (broadcast S32x56x56 (Scalar.ofBits .f32 0x3F800000#32))
      (maximumf (broadcast S32x56x56 (Scalar.ofBits .f32 0xBF800000#32))
        (subf (broadcastTo S32x56x56 rb broadcasts_S32x1x1_S32x56x56) (broadcastTo S32x56x56 xe broadcasts_S1x56x56_S32x56x56))))
      (broadcast S32x56x56 (Scalar.ofBits .f32 0x00000000#32))
  have p : FVec F S32x56x56 .f32 := mulf (mulf left right) (broadcastTo S32x56x56 nc broadcasts_S32x1x1_S32x56x56)
  mulf p p

/-- The accumulator after one more channel. -/
def step (acc : FVec F S32x56x56 .f32) (xc : Vec F S1x1x56x56 .f32) (lc rc : Vec F S1x32 .f32) : FVec F S32x56x56 .f32 :=
  addf acc (basis xc lc rc)

/-- The accumulator after the first `n` input channels, from zero. -/
def upTo (x0 : Vec F S1x64x56x56 .f32) (x1 x2 : Vec F S64x32 .f32) : ℕ → FVec F S32x56x56 .f32
  | 0 => broadcast S32x56x56 (Scalar.ofBits .f32 0x00000000#32)
  | n + 1 => if h : n < 64 then
      step (upTo x0 x1 x2 n) (View.ld x0 (xrect ⟨n, h⟩)) (View.ld x1 (krect ⟨n, h⟩)) (View.ld x2 (krect ⟨n, h⟩))
    else upTo x0 x1 x2 n

set_option maxRecDepth 65536 in
/-- What the body leaves in the output block's buffer: all sixty-four channels accumulated, a unit axis in front. -/
theorem out_eq (x0 : Vec F S1x64x56x56 .f32) (x1 x2 : Vec F S64x32 .f32) :
    out0_3 x0 x1 x2 = View.canon [⟨r0_128, shapeCast S1x32x56x56 (upTo x0 x1 x2 64) shapeCasts_S32x56x56_S1x32x56x56⟩] := rfl

end Cert.KernelIdeal.Body

end
-- ==== Proof.Term.lean ====
/-
  The mathematics both programs compute, stated once over the extended reals.

  For an input value `a` and a pair of knots `l`, `r` the "hat" factor is `max (min 1 (max (-1) v)) 0` — clip to
  [-1, 1], then the positive part — taken at `v = a - l` and at `v = r - a`; the two hats are multiplied, scaled by
  `4 / ((r - l) * (r - l))`, and the product is squared. An output element at batch `n`, output channel `o`, row `h`,
  column `w` is zero plus the sum over the 64 input channels `k` of that term at `a = x[n, k, h, w]`,
  `l = left[k, 0, 0, o]`, `r = right[k, 0, 0, o]`. The four float words (-1, 1, 0, 4) are kept as words: both
  programs spell the same ones, so none is ever evaluated.
-/
import Idealize.ShloMosaic.PureOps.Ideal
import Idealize.ShloMosaic.Lib.ValueIdx

noncomputable section

open scoped BigOperators

namespace Cert.Basis

open Idealize.ShloMosaic Idealize.ShloMosaic.ValueIdx

/-- Clip to [-1, 1], then the positive part: `max (min 1 (max (-1) v)) 0`. -/
def hat (v : EReal) : EReal :=
  max (min (Ideal.ofBits .f32 0x3F800000#32) (max (Ideal.ofBits .f32 0xBF800000#32) v)) (Ideal.ofBits .f32 0x00000000#32)

/-- The scale of a knot pair: `4 / ((r - l) * (r - l))`. -/
def scale (l r : EReal) : EReal :=
  Ideal.div (Ideal.ofBits .f32 0x40800000#32) ((r - l) * (r - l))

/-- One input channel's contribution: the two hats' product, scaled, squared. -/
def term (a l r : EReal) : EReal :=
  (hat (a - l) * hat (r - a) * scale l r) * (hat (a - l) * hat (r - a) * scale l r)

/-- The whole result: zero plus the sum of the 64 input channels' terms. -/
def G (x : (⟨4, ![8, 64, 56, 56]⟩ : Shape).Idx → EReal) (lb rb : (⟨4, ![64, 1, 1, 32]⟩ : Shape).Idx → EReal) :
    (⟨4, ![8, 32, 56, 56]⟩ : Shape).Idx → EReal := fun i =>
  Ideal.ofBits .f32 0x00000000#32
    + ∑ k : Fin 64, term (x (ix4 (i 0) k (i 2) (i 3))) (lb (ix4 k 0 0 (i 1))) (rb (ix4 k 0 0 (i 1)))

/-- A running sum over the first `n` channels, extended by channel `n`: the accumulator's step. The terms are
    given over the naturals (zero past 64) so that the running sum is a sum over `Finset.range`. -/
theorem range_step (z : EReal) (f : ℕ → EReal) (n : ℕ) :
    (z + ∑ k ∈ Finset.range n, f k) + f n = z + ∑ k ∈ Finset.range (n + 1), f k := by
  rw [Finset.sum_range_succ, add_assoc]

end Cert.Basis

end
-- ==== Proof.BodyValue.lean ====
/-
  The kernel body's value, element by element, at the extended reals.

  At output channel `o`, row `h`, column `w` one channel's `basis` reads its plane at (h, w) and its two knot rows at
  `o` — the shape casts only add or drop unit axes, the broadcasts repeat the plane over the output channels and a knot
  over the plane — and applies `term` to the three elements. So a `step` adds `term` of channel `c`'s elements, the
  accumulator after `n` channels is the zero word plus the sum of the first `n` channels' terms (induction on `n`), and
  what the body leaves in the output block's buffer at (0, o, h, w) is the zero word plus the sum over all 64 channels.
-/
import proofs.«153587_j58660663328909_1_alg».proof.Proof.Body
import proofs.«153587_j58660663328909_1_alg».proof.Proof.Term
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Basis

/-! ## The layout operations at an index -/

section Layout
variable {α : Type}

/-- A channel's plane, loaded as [1, 1, 56, 56] and viewed [1, 56, 56], at (u, h, w) is the load at (0, 0, h, w). -/
theorem plane_apply (xc : S1x1x56x56.Idx → α) (u : Fin 1) (h w : Fin 56) :
    shapeCast S1x56x56 (shapeCast S56x56 xc shapeCasts_S1x1x56x56_S56x56) shapeCasts_S56x56_S1x56x56 (ix3 u h w)
      = xc (ix4 (0 : Fin 1) (0 : Fin 1) h w) := by
  refine (shapeCast_ab_1ab_apply _ shapeCasts_S56x56_S1x56x56 u h w).trans ?_
  exact shapeCast_apply xc shapeCasts_S1x1x56x56_S56x56 _ _ (by
    rw [Shape.rowMajor_val_four, Shape.rowMajor_val_two]
    show ((0 * 1 + 0) * 56 + h.val) * 56 + w.val = h.val * 56 + w.val
    omega)

/-- A knot row, loaded as [1, 32] and viewed [32, 1, 1], at (o, u, v) is the load at (0, o). -/
theorem knot_apply (lc : S1x32.Idx → α) (o : Fin 32) (u v : Fin 1) :
    shapeCast S32x1x1 (shapeCast S32 lc shapeCasts_S1x32_S32) shapeCasts_S32_S32x1x1 (ix3 o u v)
      = lc (ix2 (0 : Fin 1) o) := by
  refine (shapeCast_apply _ shapeCasts_S32_S32x1x1 (ix3 o u v) (ix1 o) (by
    have hu : u.val = 0 := by omega
    have hv : v.val = 0 := by omega
    rw [Shape.rowMajor_val_one, Shape.rowMajor_val_three]
    show o.val = (o.val * 1 + u.val) * 1 + v.val
    omega)).trans ?_
  exact shapeCast_1a_a_apply lc shapeCasts_S1x32_S32 o

/-- The plane repeated over the 32 output channels. -/
theorem overChannels_apply (xe : S1x56x56.Idx → α) (o : Fin 32) (h w : Fin 56) :
    broadcastTo S32x56x56 xe broadcasts_S1x56x56_S32x56x56 (ix3 o h w) = xe (ix3 (0 : Fin 1) h w) :=
  broadcastTo_apply xe broadcasts_S1x56x56_S32x56x56 (ix3 o h w) (ix3 (0 : Fin 1) h w) fun a => by
    match a with
    | ⟨0, _⟩ => show 0 = if (1 : Nat) = 1 then 0 else _; rw [if_pos rfl]
    | ⟨1, _⟩ => show h.val = if (56 : Nat) = 1 then 0 else h.val; rw [if_neg (by decide)]
    | ⟨2, _⟩ => show w.val = if (56 : Nat) = 1 then 0 else w.val; rw [if_neg (by decide)]

/-- A per-output-channel value repeated over the plane. -/
theorem overPlane_apply (v : S32x1x1.Idx → α) (o : Fin 32) (h w : Fin 56) :
    broadcastTo S32x56x56 v broadcasts_S32x1x1_S32x56x56 (ix3 o h w) = v (ix3 o (0 : Fin 1) (0 : Fin 1)) :=
  broadcastTo_apply v broadcasts_S32x1x1_S32x56x56 (ix3 o h w) (ix3 o (0 : Fin 1) (0 : Fin 1)) fun a => by
    match a with
    | ⟨0, _⟩ => show o.val = if (32 : Nat) = 1 then 0 else o.val; rw [if_neg (by decide)]
    | ⟨1, _⟩ => show 0 = if (1 : Nat) = 1 then 0 else _; rw [if_pos rfl]
    | ⟨2, _⟩ => show 0 = if (1 : Nat) = 1 then 0 else _; rw [if_pos rfl]

end Layout

/-! ## The loads -/

/-- Channel `c`'s plane of the x block at (0, 0, h, w) is the block at (0, c, h, w). -/
theorem ldx_apply (x0 : Vec Ideal S1x64x56x56 .f32) (c : Fin 64) (h w : Fin 56) :
    View.ld x0 (xrect c) (ix4 (0 : Fin 1) (0 : Fin 1) h w) = x0 (ix4 (0 : Fin 1) c h w) :=
  congrArg x0 (funext fun a => Fin.ext (by
    match a with
    | ⟨0, _⟩ => rfl
    | ⟨1, _⟩ => show c.val + 1 * 0 = c.val; omega
    | ⟨2, _⟩ => show 0 + 1 * h.val = h.val; omega
    | ⟨3, _⟩ => show 0 + 1 * w.val = w.val; omega))

/-- Row `c` of a knot table at (0, o) is the table at (c, o). -/
theorem ldk_apply (x1 : Vec Ideal S64x32 .f32) (c : Fin 64) (o : Fin 32) :
    View.ld x1 (krect c) (ix2 (0 : Fin 1) o) = x1 (ix2 c o) :=
  congrArg x1 (funext fun a => Fin.ext (by
    match a with
    | ⟨0, _⟩ => show c.val + 1 * 0 = c.val; omega
    | ⟨1, _⟩ => show 0 + 1 * o.val = o.val; omega))

/-! ## One channel, then all of them -/

/-- One channel's contribution at (o, h, w) is `term` of the plane's element and the two knots. -/
theorem basis_apply (xc : Vec Ideal S1x1x56x56 .f32) (lc rc : Vec Ideal S1x32 .f32) (o : Fin 32) (h w : Fin 56) :
    basis xc lc rc (ix3 o h w) = term (xc (ix4 (0 : Fin 1) (0 : Fin 1) h w)) (lc (ix2 (0 : Fin 1) o)) (rc (ix2 (0 : Fin 1) o)) := by
  unfold basis
  simp only [mulf_apply, subf_apply, divf_apply, maximumf_apply, minimumf_apply, broadcast_apply,
    overChannels_apply, overPlane_apply, plane_apply, knot_apply]
  rfl

theorem step_apply (acc : FVec Ideal S32x56x56 .f32) (xc : Vec Ideal S1x1x56x56 .f32) (lc rc : Vec Ideal S1x32 .f32) (j : S32x56x56.Idx) :
    step acc xc lc rc j = acc j + basis xc lc rc j := rfl

theorem upTo_succ (x0 : Vec Ideal S1x64x56x56 .f32) (x1 x2 : Vec Ideal S64x32 .f32) (n : ℕ) :
    upTo x0 x1 x2 (n + 1) = if h : n < 64 then
      step (upTo x0 x1 x2 n) (View.ld x0 (xrect ⟨n, h⟩)) (View.ld x1 (krect ⟨n, h⟩)) (View.ld x2 (krect ⟨n, h⟩))
    else upTo x0 x1 x2 n := rfl

/-- Channel `k`'s term at (o, h, w), over the naturals (zero past the 64 channels). -/
def chan (x0 : Vec Ideal S1x64x56x56 .f32) (x1 x2 : Vec Ideal S64x32 .f32) (o : Fin 32) (h w : Fin 56) (k : ℕ) : EReal :=
  if hk : k < 64 then term (x0 (ix4 (0 : Fin 1) (⟨k, hk⟩ : Fin 64) h w)) (x1 (ix2 (⟨k, hk⟩ : Fin 64) o)) (x2 (ix2 (⟨k, hk⟩ : Fin 64) o)) else 0

/-- The accumulator after `n` channels is the zero word plus the first `n` channels' terms. -/
theorem upTo_apply (x0 : Vec Ideal S1x64x56x56 .f32) (x1 x2 : Vec Ideal S64x32 .f32) (o : Fin 32) (h w : Fin 56) :
    ∀ n : ℕ, upTo x0 x1 x2 n (ix3 o h w)
      = Ideal.ofBits .f32 0x00000000#32 + ∑ k ∈ Finset.range n, chan x0 x1 x2 o h w k
  | 0 => by
    rw [Finset.range_zero, Finset.sum_empty, add_zero]; rfl
  | n + 1 => by
    rw [upTo_succ]
    by_cases hn : n < 64
    · rw [dif_pos hn, step_apply, basis_apply, ldx_apply, ldk_apply, ldk_apply, upTo_apply x0 x1 x2 o h w n, ← range_step]
      refine congrArg (fun s : EReal => (Ideal.ofBits .f32 0x00000000#32 + ∑ k ∈ Finset.range n, chan x0 x1 x2 o h w k) + s) ?_
      unfold chan; rw [dif_pos hn]
    · rw [dif_neg hn, upTo_apply x0 x1 x2 o h w n, Finset.sum_range_succ]
      unfold chan; rw [dif_neg hn, add_zero]

theorem zero_off : (![0, 0, 0, 0] : Fin 4 → Nat) = fun _ => 0 :=
  funext fun a => by match a with | ⟨0, _⟩ => rfl | ⟨1, _⟩ => rfl | ⟨2, _⟩ => rfl | ⟨3, _⟩ => rfl

/-- What the body leaves in the output block's buffer at (u, o, h, w): the zero word plus all 64 channels' terms. -/
theorem out_apply (x0 : Vec Ideal S1x64x56x56 .f32) (x1 x2 : Vec Ideal S64x32 .f32) (u : Fin 1) (o : Fin 32) (h w : Fin 56) :
    out0_3 x0 x1 x2 (ix4 u o h w)
      = Ideal.ofBits .f32 0x00000000#32
        + ∑ k : Fin 64, term (x0 (ix4 (0 : Fin 1) k h w)) (x1 (ix2 k o)) (x2 (ix2 k o)) := by
  rw [out_eq, View.canon_unit_zero zero_off]
  rw [shapeCast_abc_1abc_apply, upTo_apply]
  refine congrArg (fun s : EReal => Ideal.ofBits .f32 0x00000000#32 + s) ?_
  rw [← Fin.sum_univ_eq_sum_range (fun k => chan x0 x1 x2 o h w k) 64]
  exact Finset.sum_congr rfl fun k _ => dif_pos k.isLt

end Cert.KernelIdeal.Body

end
-- ==== Proof.ArrayValue.lean ====
/-
  From the blocks to the array: the kernel's result array is the specification `G` of the argument arrays.

  The grid has one point per batch entry. At point `t` the x window's block is batch `t` of x (all 64 channels), the two
  knot windows' blocks are the whole 64x32 tables — each table the host's reshape of its [64, 1, 1, 32] argument, so its
  (k, o) entry is the argument's (k, 0, 0, o) — and the output window's block is batch `t` of the result. The body leaves
  at (0, o, h, w) the zero word plus the 64 channels' terms of those blocks, which is `G` at (t, o, h, w); every index of
  the result lies in the block of the point that is its batch coordinate, so the array after the run is `G` everywhere.
-/
import proofs.«153587_j58660663328909_1_alg».proof.Proof.Gen.KernelIdeal.Value
import proofs.«153587_j58660663328909_1_alg».proof.Proof.BodyValue
import Idealize.ShloMosaic.Lib.Pipeline.Value
import Idealize.ShloMosaic.Lib.StableHlo.Run
import Idealize.ShloMosaic.Lib.Tactic

noncomputable section

open scoped BigOperators

namespace Cert.KernelIdeal.Arr

open Cert.KernelIdeal Cert.KernelIdeal.Gen Cert.KernelIdeal.Body Idealize.ShloMosaic Idealize.ShloMosaic.TcCoe Idealize.SL.Sem
open Idealize.ShloMosaic.ValueIdx Cert.Basis
open Idealize.ShloMosaic.Pipeline (Dat)

variable (m : (ℓ : Loc nD τ sig) → Buf (Elt Ideal) ℓ) (ρ : Dev nD → PrngReg)

/-- The printed index maps, decided over the grid: the x and result windows move along the batch axis with the point,
    the knot windows stay at the whole table. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- A grid point as a batch coordinate. -/
def bat (t : Fin cfg0.N) : Fin 8 := ⟨t.val, lt_of_lt_of_eq t.isLt N_0⟩

/-- The left-knot table the region finds: the host's reshape of the second argument. -/
theorem left_eq (c : Dev nD) : (V m c main_v0 : S64x32.Idx → EReal)
    = shapeCast S64x32 (m ((c : Thread nD τ).loc main_arg1) : S64x1x1x32.Idx → EReal) shapeCasts_S64x1x1x32_S64x32 := by
  dsimp only [V, hostOps0]; after_results; rfl

/-- The right-knot table the region finds: the host's reshape of the third argument. -/
theorem right_eq (c : Dev nD) : (V m c main_v1 : S64x32.Idx → EReal)
    = shapeCast S64x32 (m ((c : Thread nD τ).loc main_arg2) : S64x1x1x32.Idx → EReal) shapeCasts_S64x1x1x32_S64x32 := by
  dsimp only [V, hostOps0]; after_results; rfl

/-- A [64, 1, 1, 32] table viewed [64, 32]: entry (k, o) is entry (k, 0, 0, o). -/
theorem table_apply (T : S64x1x1x32.Idx → EReal) (k : Fin 64) (o : Fin 32) :
    shapeCast S64x32 T shapeCasts_S64x1x1x32_S64x32 (ix2 k o) = T (ix4 k (0 : Fin 1) (0 : Fin 1) o) :=
  shapeCast_apply T shapeCasts_S64x1x1x32_S64x32 _ _ (by
    rw [Shape.rowMajor_val_four, Shape.rowMajor_val_two]
    show ((k.val * 1 + 0) * 1 + 0) * 32 + o.val = k.val * 32 + o.val
    omega)

/-- The windows' blocks at a point, at their literal types. -/
abbrev xblk (c : Dev nD) (t : Fin cfg0.N) : Vec Ideal S1x64x56x56 .f32 := iblk m c 0 t
abbrev lblk (c : Dev nD) (t : Fin cfg0.N) : Vec Ideal S64x32 .f32 := iblk m c 1 t
abbrev rblk (c : Dev nD) (t : Fin cfg0.N) : Vec Ideal S64x32 .f32 := iblk m c 2 t

/-- The x block at point `t` is batch `t` of x. -/
theorem xblk_apply (c : Dev nD) (t : Fin cfg0.N) (k : Fin 64) (h w : Fin 56) :
    xblk m c t (ix4 (0 : Fin 1) k h w)
      = (m ((c : Thread nD τ).loc main_arg0) : S8x64x56x56.Idx → EReal) (ix4 (bat t) k h w) := by
  obtain ⟨e0, e1, e2, e3, -⟩ := idx_facts t
  show iblk m c 0 t (ix4 (0 : Fin 1) k h w) = _
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = t.val; omega
  | ⟨1, _⟩ => show win0_0.index t (1 : Fin 4) * 64 + 1 * k.val = k.val; omega
  | ⟨2, _⟩ => show win0_0.index t (2 : Fin 4) * 56 + 1 * h.val = h.val; omega
  | ⟨3, _⟩ => show win0_0.index t (3 : Fin 4) * 56 + 1 * w.val = w.val; omega

/-- The left-knot block at any point is the whole table: entry (k, o) is the argument's (k, 0, 0, o). -/
theorem lblk_apply (c : Dev nD) (t : Fin cfg0.N) (k : Fin 64) (o : Fin 32) :
    lblk m c t (ix2 k o)
      = (m ((c : Thread nD τ).loc main_arg1) : S64x1x1x32.Idx → EReal) (ix4 k (0 : Fin 1) (0 : Fin 1) o) := by
  obtain ⟨-, -, -, -, e0, e1, -⟩ := idx_facts t
  show iblk m c 1 t (ix2 k o) = _
  unfold iblk
  rw [View.read_apply]
  show (V m c main_v0 : S64x32.Idx → EReal) _ = _
  rw [left_eq]
  have he : ((cfg0.win 1).blk t).view.emb (ix2 k o) = (ix2 k o : S64x32.Idx) := funext fun a => Fin.ext (by
    match a with
    | ⟨0, _⟩ => show win0_1.index t (0 : Fin 2) * 64 + 1 * k.val = k.val; omega
    | ⟨1, _⟩ => show win0_1.index t (1 : Fin 2) * 32 + 1 * o.val = o.val; omega)
  exact (congrArg _ he).trans (table_apply _ k o)

/-- The right-knot block likewise. -/
theorem rblk_apply (c : Dev nD) (t : Fin cfg0.N) (k : Fin 64) (o : Fin 32) :
    rblk m c t (ix2 k o)
      = (m ((c : Thread nD τ).loc main_arg2) : S64x1x1x32.Idx → EReal) (ix4 k (0 : Fin 1) (0 : Fin 1) o) := by
  obtain ⟨-, -, -, -, -, -, e0, e1, -⟩ := idx_facts t
  show iblk m c 2 t (ix2 k o) = _
  unfold iblk
  rw [View.read_apply]
  show (V m c main_v1 : S64x32.Idx → EReal) _ = _
  rw [right_eq]
  have he : ((cfg0.win 2).blk t).view.emb (ix2 k o) = (ix2 k o : S64x32.Idx) := funext fun a => Fin.ext (by
    match a with
    | ⟨0, _⟩ => show win0_2.index t (0 : Fin 2) * 64 + 1 * k.val = k.val; omega
    | ⟨1, _⟩ => show win0_2.index t (1 : Fin 2) * 32 + 1 * o.val = o.val; omega)
  exact (congrArg _ he).trans (table_apply _ k o)

/-- The result window's block at point `t` sits at batch `t` of the result. -/
theorem oblk_emb (t : Fin cfg0.N) (u : Fin 1) (o : Fin 32) (h w : Fin 56) :
    ((cfg0.win 3).blk t).view.emb (ix4 u o h w) = (ix4 (bat t) o h w : S8x32x56x56.Idx) := by
  obtain ⟨-, -, -, -, -, -, -, -, e0, e1, e2, e3⟩ := idx_facts t
  have hu : u.val = 0 := by omega
  refine funext fun a => Fin.ext ?_
  match a with
  | ⟨0, _⟩ => show win0_3.index t (0 : Fin 4) * 1 + 1 * u.val = t.val; omega
  | ⟨1, _⟩ => show win0_3.index t (1 : Fin 4) * 32 + 1 * o.val = o.val; omega
  | ⟨2, _⟩ => show win0_3.index t (2 : Fin 4) * 56 + 1 * h.val = h.val; omega
  | ⟨3, _⟩ => show win0_3.index t (3 : Fin 4) * 56 + 1 * w.val = w.val; omega

/-- The specification of the three argument arrays as launched. -/
abbrev result (c : Dev nD) : S8x32x56x56.Idx → EReal :=
  G (m ((c : Thread nD τ).loc main_arg0)) (m ((c : Thread nD τ).loc main_arg1)) (m ((c : Thread nD τ).loc main_arg2))

/-- What point `t` writes back is block `t` of `G` of the arguments. -/
theorem flushed_eq (c : Dev nD) (t : Fin cfg0.N) :
    (dats m 0 c).flushed 3 t = ((cfg0.win 3).blk t).view.read (Elt Ideal) (result m c) := by
  rw [Cert.KernelIdeal.Value.flushed3]
  funext y
  obtain ⟨u, o, h, w, rfl⟩ : ∃ (u : Fin 1) (o : Fin 32) (h w : Fin 56), y = ix4 u o h w := ⟨y 0, y 1, y 2, y 3, eq_ix4 y⟩
  rw [View.read_apply]
  show out0_3 (xblk m c t) (lblk m c t) (rblk m c t) (ix4 u o h w) = result m c (((cfg0.win 3).blk t).view.emb (ix4 u o h w))
  rw [oblk_emb, out_apply]
  show _ = Ideal.ofBits .f32 0x00000000#32 + ∑ k : Fin 64, term _ _ _
  refine congrArg (fun s : EReal => Ideal.ofBits .f32 0x00000000#32 + s) (Finset.sum_congr rfl fun k _ => ?_)
  rw [xblk_apply, lblk_apply, rblk_apply]

/-- An index of the result is in point `t`'s block iff each coordinate is in the block's range on its axis. -/
theorem mem_blk (t : Fin cfg0.N) (i : S8x32x56x56.Idx) :
    i ∈ ((cfg0.win 3).blk t).view.set ↔ ∀ a : Fin 4, win0_3.index t a * S1x32x56x56.size a ≤ (i a).val
      ∧ (i a).val < win0_3.index t a * S1x32x56x56.size a + S1x32x56x56.size a := by
  show i ∈ ((View.whole main_v2).slice (win0_3.rect t)).set ↔ _
  rw [View.set_slice_whole, Rect.mem_set_unit]
  exact Iff.rfl

/-- Every index of the result is in the block of the point that is its batch coordinate. -/
theorem cover (i : S8x32x56x56.Idx) : ∃ t : Fin cfg0.N, (cfg0.win 3).flush t = true ∧ i ∈ ((cfg0.win 3).blk t).view.set := by
  have hN : cfg0.N = 8 := N_0
  refine ⟨⟨(i 0).val, by rw [hN]; exact (i 0).isLt⟩, flush0_3 _, ?_⟩
  rw [mem_blk]
  obtain ⟨-, -, -, -, -, -, -, -, e0, e1, e2, e3⟩ := idx_facts ⟨(i 0).val, by rw [hN]; exact (i 0).isLt⟩
  intro a
  match a with
  | ⟨0, _⟩ => show win0_3.index _ (0 : Fin 4) * 1 ≤ (i 0).val ∧ (i 0).val < win0_3.index _ (0 : Fin 4) * 1 + 1; rw [e0]; show (i 0).val * 1 ≤ (i 0).val ∧ (i 0).val < (i 0).val * 1 + 1; omega
  | ⟨1, _⟩ => show win0_3.index _ (1 : Fin 4) * 32 ≤ (i 1).val ∧ (i 1).val < win0_3.index _ (1 : Fin 4) * 32 + 32; have h1 : (i 1).val < 32 := (i 1).isLt; rw [e1]; omega
  | ⟨2, _⟩ => show win0_3.index _ (2 : Fin 4) * 56 ≤ (i 2).val ∧ (i 2).val < win0_3.index _ (2 : Fin 4) * 56 + 56; have h2 : (i 2).val < 56 := (i 2).isLt; rw [e2]; omega
  | ⟨3, _⟩ => show win0_3.index _ (3 : Fin 4) * 56 ≤ (i 3).val ∧ (i 3).val < win0_3.index _ (3 : Fin 4) * 56 + 56; have h3 : (i 3).val < 56 := (i 3).isLt; rw [e3]; omega

/-- The result array after the run is `G` of the arguments. -/
theorem final (c : Dev nD) : (dats m 0 c).arrAt 3 cfg0.N = result m c :=
  (dats m 0 c).arrAt_eq_of_cover 3 (result m c) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Arr

end
-- ==== Proof.RefValue.lean ====
/-
  The reference's result is the specification `G`.

  Read one operation at a time, the reference's element at (n, o, h, w) is: the transpose reads the reduced array at
  (n, h, w, o); the sum over axis 1 is its initial value, the zero word, plus the sum over the 64 input channels `k` of
  the squared product at (n, k, h, w, o); and every operand of that product is a broadcast — of x read at (n, k, h, w), of
  a knot table read at (k, 0, 0, o), or of one of the words -1, 1, 0, 4. With the broadcasts read at those indices the
  summand is `term` of the three elements, operation for operation.
-/
import proofs.«153587_j58660663328909_1_alg».proof.Proof.Gen.ReferenceIdeal.Read
import proofs.«153587_j58660663328909_1_alg».proof.Proof.Term

noncomputable section

namespace Cert.ReferenceIdeal.RefValue

open Cert.ReferenceIdeal Cert.ReferenceIdeal.Read Idealize.ShloMosaic Idealize.ShloMosaic.ValueIdx Cert.Basis

/-- x is read at (n, k, h, w) through its two broadcasts. -/
theorem x_idx (i : S8x32x56x56.Idx) (k : Fin 64) :
    idx_main_v0 (idx_main_v7 (idx_main_v21 (idx_main_v22 i) k)) = ix4 (i 0) k (i 2) (i 3) :=
  funext fun a => by match a with | ⟨0, _⟩ => rfl | ⟨1, _⟩ => rfl | ⟨2, _⟩ => rfl | ⟨3, _⟩ => rfl

theorem x_idx' (i : S8x32x56x56.Idx) (k : Fin 64) :
    idx_main_v0 (idx_main_v13 (idx_main_v21 (idx_main_v22 i) k)) = ix4 (i 0) k (i 2) (i 3) :=
  funext fun a => by match a with | ⟨0, _⟩ => rfl | ⟨1, _⟩ => rfl | ⟨2, _⟩ => rfl | ⟨3, _⟩ => rfl

/-- A knot table is read at (k, 0, 0, o) through its two broadcasts, whichever of the three uses. -/
theorem l_idx (i : S8x32x56x56.Idx) (k : Fin 64) :
    idx_main_v1 (idx_main_v8 (idx_main_v21 (idx_main_v22 i) k)) = ix4 k 0 0 (i 1) :=
  funext fun a => by match a with | ⟨0, _⟩ => rfl | ⟨1, _⟩ => rfl | ⟨2, _⟩ => rfl | ⟨3, _⟩ => rfl

theorem r_idx (i : S8x32x56x56.Idx) (k : Fin 64) :
    idx_main_v2 (idx_main_v12 (idx_main_v21 (idx_main_v22 i) k)) = ix4 k 0 0 (i 1) :=
  funext fun a => by match a with | ⟨0, _⟩ => rfl | ⟨1, _⟩ => rfl | ⟨2, _⟩ => rfl | ⟨3, _⟩ => rfl

theorem l_idx' (i : S8x32x56x56.Idx) (k : Fin 64) :
    idx_main_v1 (idx_main_v18 (idx_main_v21 (idx_main_v22 i) k)) = ix4 k 0 0 (i 1) :=
  funext fun a => by match a with | ⟨0, _⟩ => rfl | ⟨1, _⟩ => rfl | ⟨2, _⟩ => rfl | ⟨3, _⟩ => rfl

theorem r_idx' (i : S8x32x56x56.Idx) (k : Fin 64) :
    idx_main_v2 (idx_main_v18 (idx_main_v21 (idx_main_v22 i) k)) = ix4 k 0 0 (i 1) :=
  funext fun a => by match a with | ⟨0, _⟩ => rfl | ⟨1, _⟩ => rfl | ⟨2, _⟩ => rfl | ⟨3, _⟩ => rfl

/-- The reference's last stage, at `Ideal`, is `G` of the three argument arrays. -/
theorem ref_eq (x0 : (⟨S8x64x56x56, .f32⟩ : BufTy).Contents (Elt Ideal)) (x1 x2 : (⟨S64x1x1x32, .f32⟩ : BufTy).Contents (Elt Ideal)) :
    val_main_v22 (F := Ideal) x0 x1 x2 = G x0 x1 x2 := by
  funext i
  rw [val_main_v22_apply, val_main_v21_apply]
  unfold G
  refine congrArg₂ (· + ·) rfl (Finset.sum_congr rfl fun k _ => ?_)
  simp only [val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply,
    val_main_call0_v4_apply, val_main_call0_v3_apply, val_main_call0_v2_apply, val_main_call0_v1_apply, val_main_call0_v0_apply,
    val_main_call1_v0_apply, val_main_call1_cst_apply,
    val_main_call2_v4_apply, val_main_call2_v3_apply, val_main_call2_v2_apply, val_main_call2_v1_apply, val_main_call2_v0_apply,
    val_main_call3_v0_apply, val_main_call3_cst_apply,
    val_main_cst_apply, val_main_cst_0_apply, val_main_cst_1_apply, val_main_cst_2_apply, val_main_cst_3_apply,
    x_idx, x_idx', l_idx, r_idx, l_idx', r_idx']
  rfl

end Cert.ReferenceIdeal.RefValue

end
-- ==== Proof.lean ====
/-
  The proof of `Cert.Claim`: the three frames, `preserves` and `algebraic`.

  Both programs compute, at batch `n`, output channel `o`, row `h`, column `w`, the zero word plus the sum over the 64
  input channels `k` of one term: with `a = x[n, k, h, w]`, `l = left[k, 0, 0, o]`, `r = right[k, 0, 0, o]` the two
  clipped positive parts `max (min 1 (max (-1) (a - l))) 0` and `max (min 1 (max (-1) (r - a))) 0` multiplied, scaled by
  `4 / ((r - l) * (r - l))`, and squared (Proof/Term.lean: `G`). The kernel forms the sum one channel at a time into an
  accumulator that starts at zero, one batch entry per grid point (Proof/Body.lean, Proof/BodyValue.lean,
  Proof/ArrayValue.lean); the reference forms the five-axis array of all terms, sums it along the channel axis from zero
  and transposes (Proof/RefValue.lean). The two differ only in the order the same 64 terms are added, which the extended
  reals' addition does not see: no law beyond associativity is used, the same float words stand on both sides and are
  never evaluated, and the precondition is never opened. The kernel's two frames are the generated ones; the reference's
  is its generated run with the result dropped; the ideal pass rewrote nothing, so `preserves` is `True`.
-/
import proofs.«153587_j58660663328909_1_alg».proof.Defs
import proofs.«153587_j58660663328909_1_alg».proof.Proof.Gen.Kernel
import proofs.«153587_j58660663328909_1_alg».proof.Proof.Gen.Kernel.Skeleton
import proofs.«153587_j58660663328909_1_alg».proof.Proof.Gen.Kernel.Launch
import proofs.«153587_j58660663328909_1_alg».proof.Proof.Gen.Kernel.Points
import proofs.«153587_j58660663328909_1_alg».proof.Proof.Gen.Kernel.Frame
import proofs.«153587_j58660663328909_1_alg».proof.Proof.Gen.KernelIdeal
import proofs.«153587_j58660663328909_1_alg».proof.Proof.Gen.KernelIdeal.Skeleton
import proofs.«153587_j58660663328909_1_alg».proof.Proof.Gen.KernelIdeal.Launch
import proofs.«153587_j58660663328909_1_alg».proof.Proof.Gen.KernelIdeal.Points
import proofs.«153587_j58660663328909_1_alg».proof.Proof.Gen.KernelIdeal.Frame
import proofs.«153587_j58660663328909_1_alg».proof.Proof.Gen.ReferenceIdeal
import proofs.«153587_j58660663328909_1_alg».proof.Proof.Gen.Pre_finite_inputs
import proofs.«153587_j58660663328909_1_alg».proof.Proof.Gen.KernelIdeal.Value
import proofs.«153587_j58660663328909_1_alg».proof.Proof.Gen.ReferenceIdeal.Run
import proofs.«153587_j58660663328909_1_alg».proof.Proof.Gen.ReferenceIdeal.Read
import proofs.«153587_j58660663328909_1_alg».proof.Proof.ArrayValue
import proofs.«153587_j58660663328909_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments the kernel's result array ends at `G` of its arguments and the reference's
    at its last stage, which is `G` of its own: one function of arguments that agree. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
